-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  main_v3
-- ==== Kernel.lean ====
abbrev S4x4096x64 : Shape := ⟨3, ![4, 4096, 64]⟩
abbrev S4x4096x4096 : Shape := ⟨3, ![4, 4096, 4096]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S_, .f32⟩
  | .hbm, ⟨3, _⟩ => ⟨S4x4096, .f32⟩
  | .hbm, ⟨4, _⟩ => ⟨S4x4096x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.KRegion.lean ====
/-
  The run of the kernel's one region, by hand.

  The pallas_call hands ONE array (the points, [4, 4096, 64]) to the kernel through two input windows — window 0 reads
  the row block (b, i), window 1 the row block (b, j) — and writes the [4, 4096, 4096] result through window 2, block
  (b, i, j). Because two windows stand on one array, the array's full share is dealt between them by halves: window 0
  holds the left half, window 1 the right half; both only read, so half a share each is enough, and the two halves
  rejoin to the full share when the region ends.

  What is proved here: the proof data of the pipeline (each input window's staging buffer holds its block at every
  point; the output window's buffer holds, after the body, the one whole-block store of the body's value of the two
  input blocks), the body's triple, the body obligation at every point, and the run: every weakly fair execution of
  @main terminates, and every window's array ends at what the pipeline library computes from the proof data.
-/
import proofs.«139774_j74972949119307_1_alg».proof.Proof.Gen.Kernel.Launch
import proofs.«139774_j74972949119307_1_alg».proof.Proof.Gen.Kernel.Skeleton
import proofs.«139774_j74972949119307_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core c's buffers when the region is entered: as launched (@main is the region alone). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the index has not moved, and the body left the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

/-- The whole [1, 1024, 64] input buffer, -/
abbrev rIn : Rect S1x1024x64 := Rect.unit (s := S1x1024x64) ![0, 0, 0] S1x1024x64.size inb_S1x1024x64_S1x1024x64_0_0_0
/-- and the whole [1, 1024, 1024] output buffer. -/
abbrev rOut : Rect S1x1024x1024 := Rect.unit (s := S1x1024x1024) ![0, 0, 0] S1x1024x1024.size inb_S1x1024x1024_S1x1024x1024_0_0_0

/-- The output window's buffer after the body, from the two input blocks: its one store, of the whole block. -/
def outBlk (x0 : Vec F S1x1024x64 .f32) (x1 : Vec F S1x1024x64 .f32) : Vec F S1x1024x1024 .f32 :=
  View.canon [⟨rOut, k0_pay1 (View.ld x0 rIn) (View.ld x1 rIn)⟩]

/-- The one store covers the buffer. -/
theorem outCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The kernel body on whole staging memrefs — the inputs' at contents x0, x1, the output's at anything — runs to the
    continuation holding the inputs' as they were and the output's at the one store of the body's value. (The body also
    loads the output buffer before it stores; the loaded value is used nowhere.) -/
theorem sound_kernel (c : Dev nD) (E : Set ℕ) (i : grid0.Coords)
    (arg3 : Memref sig .tc .vmem S1x1024x64 .f32) (harg3 : arg3.IsWhole) (arg4 : Memref sig .tc .vmem S1x1024x64 .f32) (harg4 : arg4.IsWhole)
    (arg5 : Memref sig .tc .vmem S1x1024x1024 .f32) (harg5 : arg5.IsWhole)
    (x0 : Vec F S1x1024x64 .f32) (x1 : Vec F S1x1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outBlk x0 x1)) -∗ K ⟨⟩))
      ⊢ wp frame (wpE (defs₀ (F := F)) Variants.none c none) E (cc0__kdist_kernel i arg3 harg3 arg4 harg4 arg5 harg5) K := by
  simp only [cc0__kdist_kernel_eq_skeleton]; unfold cc0__kdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the pipeline on core c: the arrays as the region finds them; after the body at point t each
    input's buffer at its block and the output's at the body's store of the two input blocks; the invariant the core's
    scoped buffers that are no staging buffer; nothing owed; the points array's share dealt by halves between the two
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's owes term pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.KRun.lean ====
/-
  The launch of the kernel's region and what its run leaves in the arrays.

  The region is entered holding the two buffers behind the three windows' arrays whole: the points array and the
  result array, each at the full share. The pipeline wants each window's array at that window's share. The result array
  goes to the output window at the full share. The points array is read by windows 0 and 1: its full share splits
  into its left and right halves, one for each, both at the array's contents. With that the library's launch theorem
  for windows that share an array gives the run: @main terminates and every window's array ends at what the library
  computes from the proof data; for an input window that is the array as it was.
-/
import proofs.«139774_j74972949119307_1_alg».proof.Proof.KRegion
import Idealize.ShloMosaic.Lib.Pipeline.Launch
import Idealize.ShloMosaic.Lib.Pipeline.Kit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at entry -/

/-- The two buffers behind the windows' arrays, whole at the full share, are the three windows' arrays at their
    shares: the points array's share splits by halves between windows 0 and 1. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_W0, bigSep_eq_bigSepL_of_eq [main_arg0, main_v0] (by decide) (by decide)]
  simp only [bigSepL_cons_cons, bigSepL_singleton]
  rw [(arr_whole0 0).set_eq_univ, (arr_whole0 2).set_eq_univ]
  show iprop((((c.tc : Thread nD τ).loc main_arg0) ↦{fullShare} V m c main_arg0) ∗ (((c.tc : Thread nD τ).loc main_v0) ↦{fullShare} V m c main_v0))
    ⊢ (iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0)) : sProp 𝕄)
  iintro ⟨Ha, Hv⟩
  have halves : ((((c.tc : Thread nD τ).loc main_arg0) ↦{fullShare} V m c main_arg0 : sProp 𝕄))
      ⊢ iprop((((c.tc : Thread nD τ).loc main_arg0) ↦{fullShare.left} V m c main_arg0) ∗ (((c.tc : Thread nD τ).loc main_arg0) ↦{fullShare.right} V m c main_arg0)) :=
    (pointsTo_share (PosShare.mem_left_op_right fullShare)).1
  ihave H := halves $$ Ha
  icases H with ⟨Hl, Hr⟩
  isplitl [Hl]; · iexact Hl
  isplitl [Hr]; · iexact Hr
  iexact Hv

/-! ## The launch -/

/-- The invariant at every point is the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The rounds library's launch element: every staging cell's owner at round 0 and a duty token for every transfer
    the pipeline issues. -/
def u₀ : UR sig nD τ := initOf (Pipeline.cells cfgs cellOf_inj) (Pipeline.launchToks cfgs cellOf_inj)

/-- What the run leaves: every window's array at what the library computes from the proof data after the last
    point. -/
def RunPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters every weakly fair execution of @main terminates, and every final state has
    each window's array at the library's computed contents. Nothing but the windows' arrays is unscoped and nothing but
    the staging buffers is scoped, so the kernel routes nothing around the region. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := arrays_of_bufs m)
    (X := fun _ => iprop(emp)) (Y := fun _ => iprop(emp)) (Z := fun _ => iprop(emp))
    (hX := fun c => by rw [unscopedRest0_eq]; iintro -; isplitr <;> iempintro)
    (hin := fun c => by rw [Phi_eq]; iintro ⟨-, H⟩; iexact H)
    (hout := fun c => by
      rw [Phi_eq]
      iintro H
      isplitr; · iempintro
      iexact H)
    (QY := fun _ _ => True)
    (hY := fun c s' => by
      iintro ⟨-, -, HSI⟩; imodintro
      isplitr; · ipureintro; trivial
      iexact HSI)
    (hQ := fun _ h c w => (h c).1 w)

/-- The run read at the two arrays the claims speak of: the result array at the library's computed contents, the points
    array as it was (an input window's array is never written). -/
theorem run_arrays : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (((dats m 0 c).arrAt_in 0 rfl _).trans (A_eq m c 0))⟩) (run_main m ρ)

/-- The frame: @main runs to the end, nothing faults, and the points array ends as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_arrays m ρ)

end Cert.Kernel.Region

end
-- ==== Proof.KIRegion.lean ====
/-
  The run of the idealized kernel's one region, by hand.

  The pallas_call hands ONE array (the points, [4, 4096, 64]) to the kernel through two input windows — window 0 reads
  the row block (b, i), window 1 the row block (b, j) — and writes the [4, 4096, 4096] result through window 2, block
  (b, i, j). Because two windows stand on one array, the array's full share is dealt between them by halves: window 0
  holds the left half, window 1 the right half; both only read, so half a share each is enough, and the two halves
  rejoin to the full share when the region ends.

  What is proved here: the proof data of the pipeline (each input window's staging buffer holds its block at every
  point; the output window's buffer holds, after the body, the one whole-block store of the body's value of the two
  input blocks), the body's triple, the body obligation at every point, and the run: every weakly fair execution of
  @main terminates, and every window's array ends at what the pipeline library computes from the proof data.
-/
import proofs.«139774_j74972949119307_1_alg».proof.Proof.Gen.KernelIdeal.Launch
import proofs.«139774_j74972949119307_1_alg».proof.Proof.Gen.KernelIdeal.Skeleton
import proofs.«139774_j74972949119307_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core c's buffers when the region is entered: as launched (@main is the region alone). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the index has not moved, and the body left the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

/-- The whole [1, 1024, 64] input buffer, -/
abbrev rIn : Rect S1x1024x64 := Rect.unit (s := S1x1024x64) ![0, 0, 0] S1x1024x64.size inb_S1x1024x64_S1x1024x64_0_0_0
/-- and the whole [1, 1024, 1024] output buffer. -/
abbrev rOut : Rect S1x1024x1024 := Rect.unit (s := S1x1024x1024) ![0, 0, 0] S1x1024x1024.size inb_S1x1024x1024_S1x1024x1024_0_0_0

/-- The output window's buffer after the body, from the two input blocks: its one store, of the whole block. -/
def outBlk (x0 : Vec F S1x1024x64 .f32) (x1 : Vec F S1x1024x64 .f32) : Vec F S1x1024x1024 .f32 :=
  View.canon [⟨rOut, k0_pay1 (View.ld x0 rIn) (View.ld x1 rIn)⟩]

/-- The one store covers the buffer. -/
theorem outCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The kernel body on whole staging memrefs — the inputs' at contents x0, x1, the output's at anything — runs to the
    continuation holding the inputs' as they were and the output's at the one store of the body's value. (The body also
    loads the output buffer before it stores; the loaded value is used nowhere.) -/
theorem sound_kernel (c : Dev nD) (E : Set ℕ) (i : grid0.Coords)
    (arg3 : Memref sig .tc .vmem S1x1024x64 .f32) (harg3 : arg3.IsWhole) (arg4 : Memref sig .tc .vmem S1x1024x64 .f32) (harg4 : arg4.IsWhole)
    (arg5 : Memref sig .tc .vmem S1x1024x1024 .f32) (harg5 : arg5.IsWhole)
    (x0 : Vec F S1x1024x64 .f32) (x1 : Vec F S1x1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outBlk x0 x1)) -∗ K ⟨⟩))
      ⊢ wp frame (wpE (defs₀ (F := F)) Variants.none c none) E (cc0__kdist_kernel i arg3 harg3 arg4 harg4 arg5 harg5) K := by
  simp only [cc0__kdist_kernel_eq_skeleton]; unfold cc0__kdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The pipeline's proof data -/

/-- The proof data of the pipeline on core c: the arrays as the region finds them; after the body at point t each
    input's buffer at its block and the output's at the body's store of the two input blocks; the invariant the core's
    scoped buffers that are no staging buffer; nothing owed; the points array's share dealt by halves between the two
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's owes term pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KIRun.lean ====
/-
  The launch of the idealized kernel's region and what its run leaves in the arrays.

  The region is entered holding the two buffers behind the three windows' arrays whole: the points array and the
  result array, each at the full share. The pipeline wants each window's array at that window's share. The result array
  goes to the output window at the full share. The points array is read by windows 0 and 1: its full share splits
  into its left and right halves, one for each, both at the array's contents. With that the library's launch theorem
  for windows that share an array gives the run: @main terminates and every window's array ends at what the library
  computes from the proof data; for an input window that is the array as it was.
-/
import proofs.«139774_j74972949119307_1_alg».proof.Proof.KIRegion
import Idealize.ShloMosaic.Lib.Pipeline.Launch
import Idealize.ShloMosaic.Lib.Pipeline.Kit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at entry -/

/-- The two buffers behind the windows' arrays, whole at the full share, are the three windows' arrays at their
    shares: the points array's share splits by halves between windows 0 and 1. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_W0, bigSep_eq_bigSepL_of_eq [main_arg0, main_v0] (by decide) (by decide)]
  simp only [bigSepL_cons_cons, bigSepL_singleton]
  rw [(arr_whole0 0).set_eq_univ, (arr_whole0 2).set_eq_univ]
  show iprop((((c.tc : Thread nD τ).loc main_arg0) ↦{fullShare} V m c main_arg0) ∗ (((c.tc : Thread nD τ).loc main_v0) ↦{fullShare} V m c main_v0))
    ⊢ (iprop((((c.tc : Thread nD τ).loc main_arg0) ↦{fullShare.left} V m c main_arg0)
        ∗ (((c.tc : Thread nD τ).loc main_arg0) ↦{fullShare.right} V m c main_arg0)
        ∗ (((c.tc : Thread nD τ).loc main_v0) ↦{fullShare} V m c main_v0)) : sProp 𝕄)
  iintro ⟨Ha, Hv⟩
  have halves : ((((c.tc : Thread nD τ).loc main_arg0) ↦{fullShare} V m c main_arg0 : sProp 𝕄))
      ⊢ iprop((((c.tc : Thread nD τ).loc main_arg0) ↦{fullShare.left} V m c main_arg0) ∗ (((c.tc : Thread nD τ).loc main_arg0) ↦{fullShare.right} V m c main_arg0)) :=
    (pointsTo_share (PosShare.mem_left_op_right fullShare)).1
  ihave H := halves $$ Ha
  icases H with ⟨Hl, Hr⟩
  isplitl [Hl]; · iexact Hl
  isplitl [Hr]; · iexact Hr
  iexact Hv

/-! ## The launch -/

/-- The invariant at every point is the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The rounds library's launch element: every staging cell's owner at round 0 and a duty token for every transfer
    the pipeline issues. -/
def u₀ : UR sig nD τ := initOf (Pipeline.cells cfgs cellOf_inj) (Pipeline.launchToks cfgs cellOf_inj)

/-- What the run leaves: every window's array at what the library computes from the proof data after the last
    point. -/
def RunPost : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters every weakly fair execution of @main terminates, and every final state has
    each window's array at the library's computed contents. Nothing but the windows' arrays is unscoped and nothing but
    the staging buffers is scoped, so the kernel routes nothing around the region. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_region cfgs 0 defs₀ Variants.none m main fun c => (main_chain c).trans rfl)
    (hsplit := arrays_of_bufs m)
    (X := fun _ => iprop(emp)) (Y := fun _ => iprop(emp)) (Z := fun _ => iprop(emp))
    (hX := fun c => by rw [unscopedRest0_eq]; iintro -; isplitr <;> iempintro)
    (hin := fun c => by rw [Phi_eq]; iintro ⟨-, H⟩; iexact H)
    (hout := fun c => by
      rw [Phi_eq]
      iintro H
      isplitr; · iempintro
      iexact H)
    (QY := fun _ _ => True)
    (hY := fun c s' => by
      iintro ⟨-, -, HSI⟩; imodintro
      isplitr; · ipureintro; trivial
      iexact HSI)
    (hQ := fun _ h c w => (h c).1 w)

/-- The run read at the two arrays the claims speak of: the result array at the library's computed contents, the points
    array as it was (an input window's array is never written). -/
theorem run_arrays : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨h c 2, (h c 0).trans (((dats m 0 c).arrAt_in 0 rfl _).trans (A_eq m c 0))⟩) (run_main m ρ)

/-- The frame: @main runs to the end, nothing faults, and the points array ends as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_arrays m ρ)

end Cert.KernelIdeal.Region

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- A column of row values — the result of a sum over rows with its axis kept — read at one index.

   Three layout steps that a row reduction with a kept axis produces and a broadcast consumes: a vector of a values cast
   to an [a, 1] column; that column broadcast along b columns; and a vector's exponential read at an index. Each reads
   its operand at the evident index. -/
import Idealize.ShloMosaic.PureOps.Ideal
import Idealize.ShloMosaic.Lib.Pipeline.Value
import Idealize.ShloMosaic.Lib.ValueIdx

noncomputable section

namespace Cert.Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector's exponential at an index, on the extended reals. -/
theorem exp_apply {s : Shape} {φ : FTy} (a : FVec Ideal s φ) (i : s.Idx) : exp a i = Ideal.exp (a i) := rfl

/-- A scalar literal on the extended reals is what its pattern denotes. -/
theorem scalar_ofBits (φ : FTy) (b : BitVec φ.bits) : Scalar.ofBits (F := Ideal) φ b = Ideal.ofBits φ b := rfl

end Cert.Keepdims

end
-- ==== Proof.KIPayload.lean ====
/-
  The idealized kernel's body at one index of its output block.

  From the two loaded [1, 1024, 64] blocks x0 (rows p) and x1 (rows q) the body stores, at (0, p, q),
  exp (max (|x0_p|^2 + |x1_q|^2 - 2 <x0_p, x1_q>, 0) * (-1/2)): the two row sums of squares (one kept as a column and
  broadcast along the columns, one laid as a row and broadcast along the rows), the product of x0 with x1 transposed
  into a zero accumulator (the rounding to bf16 on the way in is the identity on the extended reals), and the
  pointwise tail.
-/
import proofs.«139774_j74972949119307_1_alg».proof.Proof.Gen.KernelIdeal.Skeleton
import proofs.«139774_j74972949119307_1_alg».proof.Proof.LibDotPlain
import proofs.«139774_j74972949119307_1_alg».proof.Proof.LibKeepdims
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen
open Idealize.ShloMosaic Idealize.ShloMosaic.ValueIdx Cert.Keepdims
open scoped BigOperators

/-- A row's sum, as the body takes it: the lane sum over the 64 columns from the zero pattern. -/
theorem rowsum_apply (v : FVec Ideal S1024x64 .f32) (h : S1024x64.Reduces [1] S1024)
    (hacc : (0x00000000#32 : BitVec 32) = 0x00000000#32) (p : Fin 1024) :
    multiReduction .add [1] S1024 v 0x00000000#32 h (.inl rfl) hacc (ix1 p) = ∑ k : Fin 64, v (ix2 p k) := by
  refine (Ideal.multiReduction_add_single v 0x00000000#32 h (.inl rfl) hacc (ix1 p)).trans ?_
  show ∑ k : Fin 64, v (h.lift (ix1 p) k) = _
  refine Finset.sum_congr rfl fun k _ => congrArg v ?_
  exact funext fun a => Fin.ext (by match a with | ⟨0, _⟩ => rfl | ⟨1, _⟩ => rfl)

/-- The value the body stores at (u, p, q) of its output block. -/
def blockVal (x0 x1 : Vec Ideal S1x1024x64 .f32) (p q : Fin 1024) : EReal :=
  Ideal.exp (max ((∑ k : Fin 64, x0 (ix3 (0 : Fin 1) p k) * x0 (ix3 (0 : Fin 1) p k))
        + (∑ k : Fin 64, x1 (ix3 (0 : Fin 1) q k) * x1 (ix3 (0 : Fin 1) q k))
        - Ideal.ofBits .f32 0x40000000#32 * ∑ k : Fin 64, x0 (ix3 (0 : Fin 1) p k) * x1 (ix3 (0 : Fin 1) q k)) 0
      * Ideal.ofBits .f32 0xBF000000#32)

theorem pay_apply (x0 x1 : Vec Ideal S1x1024x64 .f32) (u : Fin 1) (p q : Fin 1024) :
    k0_pay1 (F := Ideal) x0 x1 (ix3 u p q) = blockVal x0 x1 p q := by
  unfold k0_pay1 blockVal
  rw [shapeCast_ab_1ab_apply]
  simp only [exp_apply, mulf_apply, maximumf_apply, subf_apply, addf_apply, broadcast_apply, scalar_ofBits]
  rw [broadcastTo_a1_ab_apply, shapeCast_a_a1_apply, rowsum_apply, broadcastTo_1b_ab_apply, shapeCast_a_1a_apply, rowsum_apply]
  simp only [matmul]
  rw [Cert.DotPlain.matmul_zero_rows_cols dot_S1024x64_S64x1024_S1024x1024_1_0_0_1_n_n rfl rfl rfl rfl rfl rfl]
  simp only [truncf_apply, shapeCast_1ab_ab_apply, mulf_apply, Ideal.ofBits_zero_f32]
  have hT : ∀ k : Fin 64, (transpose S64x1024 [1, 0] (truncf (F := Ideal) .bf16 (shapeCast S1024x64 x1 shapeCasts_S1x1024x64_S1024x64) bitsLt_bf16_f32)
      transposes_S1024x64_p1_0_S64x1024 (ix2 k q) : EReal) = (x1 (ix3 (0 : Fin 1) q k) : EReal) := fun k => by
    rw [transpose_ix2_apply, truncf_apply, shapeCast_1ab_ab_apply]
  simp only [hT]

end Cert.KernelIdeal.Block

end
-- ==== Proof.Spec.lean ====
/-
  The specification: the Gaussian kernel matrix of a batch of point sets, index by index, on the extended reals.

  For points x of shape [4, 4096, 64] the result at (b, i, j) is exp (-d2 / 2) with
  d2 = max (|x_bi|^2 + |x_bj|^2 - 2 <x_bi, x_bj>, 0), the squared distance of the two points by the product identity,
  clamped at zero. The kernel scales d2 by the literal -1/2; the reference negates d2 and divides by the literal 2.
  On the extended reals these are one number for every d2, infinite or not: a division by the real 2 is the product
  with 1/2, and a sign moves freely across a product.
-/
import Idealize.ShloMosaic.PureOps.Ideal
import Idealize.ShloMosaic.PureOps.Ideal.Laws
import Idealize.ShloMosaic.Lib.ValueIdx

noncomputable section

namespace Cert.Gauss

open Idealize.ShloMosaic Idealize.ShloMosaic.ValueIdx
open scoped BigOperators

/-- A batch of 4 sets of 4096 points in 64 dimensions. -/
abbrev Pts : Type := (⟨3, ![4, 4096, 64]⟩ : Shape).Idx → EReal

/-- The squared norm of point (b, i): the sum of its coordinates' squares. -/
def sqn (x : Pts) (b : Fin 4) (i : Fin 4096) : EReal := ∑ k : Fin 64, x (ix3 b i k) * x (ix3 b i k)

/-- The inner product of points (b, i) and (b, j). -/
def dotp (x : Pts) (b : Fin 4) (i j : Fin 4096) : EReal := ∑ k : Fin 64, x (ix3 b i k) * x (ix3 b j k)

/-- The squared distance by the product identity, with the factor 2 as the programs spell it, clamped at zero. -/
def dist2 (x : Pts) (b : Fin 4) (i j : Fin 4096) : EReal :=
  max (sqn x b i + sqn x b j - Ideal.ofBits .f32 0x40000000#32 * dotp x b i j) 0

/-- The Gaussian of the squared distance, in the kernel's spelling: the product with the literal -1/2. -/
def gauss (x : Pts) (b : Fin 4) (i j : Fin 4096) : EReal :=
  Ideal.exp (dist2 x b i j * Ideal.ofBits .f32 0xBF000000#32)

/-- The whole result array. -/
def G (x : Pts) : (⟨3, ![4, 4096, 4096]⟩ : Shape).Idx → EReal :=
  fun y => gauss x ⟨(y 0).val, (y 0).isLt⟩ ⟨(y 1).val, (y 1).isLt⟩ ⟨(y 2).val, (y 2).isLt⟩

theorem G_ix3 (x : Pts) (b : Fin 4) (i j : Fin 4096) : G x (ix3 b i j) = gauss x b i j := rfl

/-! ## The literals -/

/-- The pattern of 2.0 denotes the real 2. -/
theorem ofBits_two : Ideal.ofBits .f32 0x40000000#32 = ((2 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-! ## The law that joins the two sides -/

/-- Scaling by -1/2 is negating and dividing by 2, for every extended real. -/
theorem scale_neg_half (z : EReal) :
    z * Ideal.ofBits .f32 0xBF000000#32 = Ideal.div (-z) (Ideal.ofBits .f32 0x40000000#32) := by
  rw [ofBits_two, ofBits_neg_half, Ideal.div_coe (by norm_num : (2 : ℝ) ≠ 0), EReal.coe_neg, mul_neg, neg_mul]

end Cert.Gauss

end
-- ==== Proof.KIValue.lean ====
/-
  From the blocks to the array: what the idealized kernel's run leaves in the result array.

  Point t of the 4 x 4 x 4 grid has coordinates (b, i, j). Its output block is block (b, i, j) of the result, rows
  1024 i + p and columns 1024 j + q of batch b; its first input block is block (b, i, 0) of the points (rows 1024 i + p),
  its second block (b, j, 0) (rows 1024 j + q). So the body's value at (0, p, q) — the Gaussian of the rows p and q of its
  two input blocks — is the specification at (b, 1024 i + p, 1024 j + q): every point writes back the block of ONE
  whole-array function, and the 64 blocks tile the result array.
-/
import proofs.«139774_j74972949119307_1_alg».proof.Proof.KIRun
import proofs.«139774_j74972949119307_1_alg».proof.Proof.KIPayload
import proofs.«139774_j74972949119307_1_alg».proof.Proof.Spec
import Idealize.ShloMosaic.Lib.Pipeline.Value

set_option maxRecDepth 16384

noncomputable section

namespace Cert.KernelIdeal.Block

open Cert.KernelIdeal Cert.KernelIdeal.Gen Cert.KernelIdeal.Region
open Idealize.ShloMosaic Idealize.ShloMosaic.TcCoe Idealize.ShloMosaic.ValueIdx Idealize.SL.Sem Cert.Gauss
open Idealize.ShloMosaic.Pipeline (Dat Cfg Window)
open scoped BigOperators

variable (m : (ℓ : Loc nD τ sig) → Buf (Elt Ideal) ℓ) (ρ : Dev nD → PrngReg)

/-- The body's value of two blocks whose rows p and q are rows i and j of batch b of the points is the Gaussian of
    those two points. -/
theorem blockVal_eq_gauss (A : Pts) (X0 X1 : Vec Ideal S1x1024x64 .f32) (b : Fin 4) (i j : Fin 4096) (p q : Fin 1024)
    (h0 : ∀ k : Fin 64, X0 (ix3 (0 : Fin 1) p k) = A (ix3 b i k)) (h1 : ∀ k : Fin 64, X1 (ix3 (0 : Fin 1) q k) = A (ix3 b j k)) :
    blockVal X0 X1 p q = gauss A b i j := by
  unfold blockVal gauss dist2 sqn dotp
  simp only [h0, h1]

theorem hz3 : (![0, 0, 0] : Fin 3 → Nat) = fun _ => 0 := funext fun a => by fin_cases a <;> rfl

/-- The printed index maps, decided over the grid: the first input window moves with the output's batch and row block,
    the second with its batch and column block, both at column block 0; the output's block indices stay below 4. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 3 ∧ win0_2.index t (1 : Fin 3) ≤ 3 ∧ win0_2.index t (2 : Fin 3) ≤ 3 :=
  (by decide +kernel : ∀ t : Fin grid0.N, _)

/-- Every block of the result is some point's. -/
theorem idx_onto : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- What point t writes back is block t of the specification of the points array as the region finds it. -/
theorem flushed_eq (c : Dev nD) (t : Fin cfg0.N) :
    (dats m 0 c).flushed 2 t = ((cfg0.win 2).blk t).view.read (Elt Ideal) (G (V m c main_arg0)) := by
  show (cfg0.win 2).cut (grid0.coords t) ((dats m 0 c).after 2 t) = _
  rw [after_2]
  unfold outBlk
  rw [View.canon_unit_zero hz3]
  simp only [View.ld_unit_zero (S := S1x1024x64) hz3]
  obtain ⟨e0, e1, e2, e3, e4, e5, e6, e7, e8⟩ := idx_facts t
  funext y
  obtain ⟨u, p, q, rfl⟩ : ∃ (u : Fin 1) (p q : Fin 1024), y = ix3 u p q := ⟨y 0, y 1, y 2, eq_ix3 y⟩
  refine (pay_apply (iblk m c 0 t) (iblk m c 1 t) u p q).trans ?_
  show blockVal (iblk m c 0 t) (iblk m c 1 t) p q = G (V m c main_arg0) (((cfg0.win 2).blk t).view.emb (ix3 u p q))
  refine blockVal_eq_gauss (V m c main_arg0) (iblk m c 0 t) (iblk m c 1 t) _ _ _ p q (fun k => ?_) (fun k => ?_)
  · show V m c main_arg0 (((cfg0.win 0).blk t).view.emb (ix3 (0 : Fin 1) p k)) = V m c main_arg0 _
    refine congrArg (V m c main_arg0) (funext fun a => Fin.ext ?_)
    have hu : u.val = 0 := by omega
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 64 + 1 * k.val = k.val; omega
  · show V m c main_arg0 (((cfg0.win 1).blk t).view.emb (ix3 (0 : Fin 1) q k)) = V m c main_arg0 _
    refine congrArg (V m c main_arg0) (funext fun a => Fin.ext ?_)
    have hu : u.val = 0 := by omega
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 64 + 1 * k.val = k.val; omega

/-- An index of the result is in point t's block iff each coordinate is in the block's range on its axis. -/
theorem mem_blk (t : Fin cfg0.N) (i : S4x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The 64 blocks tile the result: the point that covers (b, r, s) is the one at (b, r / 1024, s / 1024). -/
theorem cover (i : S4x4096x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, by omega⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the specification of the points array. -/
theorem final (c : Dev nD) : (dats m 0 c).arrAt 2 cfg0.N = G (V m c main_arg0) :=
  (dats m 0 c).arrAt_eq_of_cover 2 (G (V m c main_arg0)) (fun t _ => flushed_eq m c t) cover

/-- The run, read: the result array at the specification of the launch contents of the points, which end unchanged. -/
theorem run : θ_run defs (onTc (τ := τ) (main (F := Ideal))) ⟨m, fun _ => 0, ρ⟩ (fun r => ∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0)) :=
  (θ_run defs _ _).mono (fun _ h c => ⟨(h c).1.trans (final m c), (h c).2⟩) (run_arrays m ρ)

end Cert.KernelIdeal.Block

end
-- ==== Proof.RefIsG.lean ====
/-
  The reference computes the specification.

  Stage by stage at an index: the row sums of squares are the squared norms (the initial value of the host's sum is
  the zero pattern, which denotes 0), the batched product over the last axes is the inner product of two points of one
  batch, the two broadcasts put |x_bi|^2 and |x_bj|^2 at (b, i, j), and the tail is max (· - 2 ·, 0), a negation, a
  division by 2 and the exponential. The division by 2 of the negated distance is the distance's product with -1/2.
-/
import proofs.«139774_j74972949119307_1_alg».proof.Proof.Gen.ReferenceIdeal.Read
import proofs.«139774_j74972949119307_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Gauss
open scoped BigOperators

/-- The points array as the reference's first argument. -/
abbrev Arg : Type := (⟨S4x4096x64, .f32⟩ : BufTy).Contents (Elt Ideal)

/-- The row sums of squares are the squared norms. -/
theorem rowsq_apply (x : Arg) (b : Fin 4) (i : Fin 4096) : val_main_v1 (F := Ideal) x (ix2 b i) = sqn x b i := by
  rw [val_main_v1_apply]
  simp only [val_main_cst_apply, val_main_v0_apply, Ideal.ofBits_def, Ideal.mulf_def, Ideal.ofBits_zero_f32, zero_add]
  unfold sqn
  refine Finset.sum_congr rfl fun k _ => ?_
  have e : idx_main_v1 (ix2 b i) k = ix3 b i k :=
    funext fun a => Fin.ext (by match a with | ⟨0, _⟩ => rfl | ⟨1, _⟩ => rfl | ⟨2, _⟩ => rfl)
  rw [e]

/-- The batched product over the last axes is the inner product of two points of one batch. -/
theorem prod_apply (x : Arg) (b : Fin 4) (i j : Fin 4096) : val_main_v2 (F := Ideal) x (ix3 b i j) = dotp x b i j := by
  rw [val_main_v2_apply]
  unfold dotp
  refine Finset.sum_congr rfl fun k _ => ?_
  have el : lidx_main_v2 (ix3 b i j) k = ix3 b i k :=
    funext fun a => Fin.ext (by match a with | ⟨0, _⟩ => rfl | ⟨1, _⟩ => rfl | ⟨2, _⟩ => rfl)
  have er : ridx_main_v2 (ix3 b i j) k = ix3 b j k :=
    funext fun a => Fin.ext (by match a with | ⟨0, _⟩ => rfl | ⟨1, _⟩ => rfl | ⟨2, _⟩ => rfl)
  rw [el, er]

/-- The squared norms broadcast along the columns: |x_bi|^2 at (b, i, j). -/
theorem rownorm_apply (x : Arg) (b : Fin 4) (i j : Fin 4096) : val_main_v5 (F := Ideal) x (ix3 b i j) = sqn x b i := by
  rw [val_main_v5_apply, val_main_v3_apply]
  have e : idx_main_v3 (idx_main_v5 (ix3 b i j)) = ix2 b i :=
    funext fun a => Fin.ext (by match a with | ⟨0, _⟩ => rfl | ⟨1, _⟩ => rfl)
  rw [e, rowsq_apply]

/-- The squared norms broadcast along the rows: |x_bj|^2 at (b, i, j). -/
theorem colnorm_apply (x : Arg) (b : Fin 4) (i j : Fin 4096) : val_main_v6 (F := Ideal) x (ix3 b i j) = sqn x b j := by
  rw [val_main_v6_apply, val_main_v4_apply]
  have e : idx_main_v4 (idx_main_v6 (ix3 b i j)) = ix2 b j :=
    funext fun a => Fin.ext (by match a with | ⟨0, _⟩ => rfl | ⟨1, _⟩ => rfl)
  rw [e, rowsq_apply]

/-- The reference's result is the specification's array. -/
theorem ref_eq_G (x : Arg) : val_main_v16 (F := Ideal) x = G x := by
  funext y
  obtain ⟨b, i, j, rfl⟩ : ∃ (b : Fin 4) (i : Fin 4096) (j : Fin 4096), y = ix3 b i j := ⟨y 0, y 1, y 2, eq_ix3 y⟩
  rw [G_ix3, val_main_v16_apply, val_main_v15_apply, val_main_v13_apply, val_main_v12_apply, val_main_v10_apply,
    val_main_v7_apply, val_main_v9_apply, rownorm_apply, colnorm_apply, prod_apply,
    val_main_v8_apply, val_main_v11_apply, val_main_v14_apply,
    val_main_cst_0_apply, val_main_cst_1_apply, val_main_cst_2_apply]
  simp only [Ideal.ofBits_def, Ideal.mulf_def, Ideal.subf_def, Ideal.addf_def, Ideal.maximumf_def, Ideal.hostNegf_def,
    Ideal.negf_def, Ideal.hostDivf_def, Ideal.hostUnary_exp_def, Ideal.ofBits_zero_f32]
  unfold gauss dist2
  rw [scale_neg_half]

end Cert.ReferenceIdeal.RefValue

end
-- ==== Proof.lean ====
/-
  The claim: the Pallas kernel that builds a Gaussian kernel matrix from pairwise squared distances, tile by tile,
  against the plain formulation.

  Both programs compute, for points x of shape [4, 4096, 64], the array K with
  K (b, i, j) = exp (-max (|x_bi|^2 + |x_bj|^2 - 2 <x_bi, x_bj>, 0) / 2). The kernel tiles K into 1024 x 1024 blocks over a
  4 x 4 x 4 grid; at a block it reads the two row blocks of x it needs — both out of the ONE points array, through two
  windows — takes the row sums of squares, the product of one block with the other transposed, and scales the clamped
  distance by -1/2. The reference takes the row sums once, a batched product, and divides the negated clamped distance
  by 2. On the extended reals the two are one function of x at every index: sums are the same sums, the rounding to bf16
  on the way into the product is the identity, and a product with -1/2 is a negation and a division by 2
  (Proof/Spec.lean). No finiteness of the input is used.

  The three frames: the kernel's two (at the word-level reading and at the ideal reading) are the run of its one region
  (Proof/KRun.lean, Proof/KIRun.lean), the points array's share dealt by halves between the two windows that read it; the
  reference's is its run with the result dropped. The ideal pass rewrote nothing, so the idealization claim is trivial.
-/
import proofs.«139774_j74972949119307_1_alg».proof.Defs
import proofs.«139774_j74972949119307_1_alg».proof.Proof.Gen.Kernel
import proofs.«139774_j74972949119307_1_alg».proof.Proof.Gen.KernelIdeal
import proofs.«139774_j74972949119307_1_alg».proof.Proof.Gen.ReferenceIdeal
import proofs.«139774_j74972949119307_1_alg».proof.Proof.Gen.Pre_finite_inputs
import proofs.«139774_j74972949119307_1_alg».proof.Proof.Gen.ReferenceIdeal.Run
import proofs.«139774_j74972949119307_1_alg».proof.Proof.Gen.ReferenceIdeal.Read
import proofs.«139774_j74972949119307_1_alg».proof.Proof.KRun
import proofs.«139774_j74972949119307_1_alg».proof.Proof.KIValue
import proofs.«139774_j74972949119307_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end and leaves the points array as it was. -/
theorem frame_k : Cert.frame_Kernel (hKernel := Cert.Kernel.Gen.facts) (hPre_finite_inputs := Cert.Pre_finite_inputs.Gen.facts) :=
  fun m ρ _ => Cert.Kernel.Region.frame m ρ

/-- So does the kernel read at the ideal instance. -/
theorem frame_ki : Cert.frame_KernelIdeal (hKernelIdeal := Cert.KernelIdeal.Gen.facts) (hPre_finite_inputs := Cert.Pre_finite_inputs.Gen.facts) :=
  fun m ρ _ => Cert.KernelIdeal.Region.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification's array of the points they were launched with: the kernel's run read
    block by block, the reference's run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gauss.G (m ((c.tc : Thread Cert.KernelIdeal.nD Cert.KernelIdeal.τ).loc Cert.KernelIdeal.main_arg0)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq_G, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
